-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x32 : Shape := ⟨2, ![128, 32]⟩
abbrev S32 : Shape := ⟨1, ![32]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  main_v18

def fn {F : FTy → Type} [FloatOps F] (main_arg0 : FVec F S10000x128 .f32) (main_arg1 : FVec F S10000x10000 .f32) (main_arg2 : FVec F S128x32 .f32) (main_arg3 : FVec F S32 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x32 .f32 := Host.absf main_arg2
  let main_cst_2 : FVec F S_ .f32 := constant S_ .f32 0x7F800000#32
  let main_v10 : FVec F S128x32 .f32 := broadcastInDim S128x32 ![] bcast_S_S128x32 main_cst_2
  let main_v11 : IVec S128x32 1 := cmpf .olt main_v9 main_v10
  let main_c_3 : IVec S_ 1 := constantI S_ 1 1#1
  let main_v12 : IVec S_ 1 := (fun x v => Host.reduce IntOp.andi x v reducesTo_S128x32_S_d0_1 h_S_) main_v11 main_c_3
  let main_v13 : IVec S_ 1 := andi main_v8 main_v12
  let main_v14 : FVec F S32 .f32 := Host.absf main_arg3
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_v13 main_v16
-- ==== Kernel.lean ====
abbrev S10000x128 : Shape := ⟨2, ![10000, 128]⟩
abbrev S10000x10000 : Shape := ⟨2, ![10000, 10000]⟩
abbrev S128x32 : Shape := ⟨2, ![128, 32]⟩
abbrev S32 : Shape := ⟨1, ![32]⟩
abbrev S1x32 : Shape := ⟨2, ![1, 32]⟩
abbrev S10000x32 : Shape := ⟨2, ![10000, 32]⟩
abbrev S416x10000 : Shape := ⟨2, ![416, 10000]⟩
abbrev S416x32 : Shape := ⟨2, ![416, 32]⟩

abbrev nBuf : Space → Nat
  | .hbm => 6
  | .vmem => 8
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x32, .f32⟩
  | .hbm, ⟨3, _⟩ => ⟨S32, .f32⟩
  | .hbm, ⟨4, _⟩ => ⟨S1x32, .f32⟩
  | .hbm, ⟨5, _⟩ => ⟨S10000x32, .f32⟩
  | .local _ .vmem, ⟨0, _⟩ => ⟨S416x10000, .f32⟩
  | .local _ .vmem, ⟨1, _⟩ => ⟨S416x10000, .f32⟩
  | .local _ .vmem, ⟨2, _⟩ => ⟨S10000x128, .f32⟩
  | .local _ .vmem, ⟨3, _⟩ => ⟨S128x32, .f32⟩
  | .local _ .vmem, ⟨4, _⟩ => ⟨S1x32, .f32⟩
  | .local _ .vmem, ⟨5, _⟩ => ⟨S416x32, .f32⟩
  | .local _ .vmem, ⟨6, _⟩ => ⟨S416x32, .f32⟩
  | .local _ .vmem, ⟨7, _⟩ => ⟨S10000x32, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c24_i32 : BitVec 32 := 24#32
  let v0 : BitVec 32 := Scalar.subi c24_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c24_i32 : BitVec 32 := 24#32
  let v0 : BitVec 32 := Scalar.subi c24_i32 arg0
  let c0_i32 : BitVec 32 := 0#32
  let c0_i32_0 : BitVec 32 := 0#32
  ![v0.toNat, c0_i32.toNat]

abbrev stage0_0 : Fin 2 → Memref sig .tc .vmem S416x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S416x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S32_S1x32 : S32.ShapeCasts S1x32
  inb_S10000x128_S10000x128_0_0 : ∀ a, (![0, 0] : Fin 2 → Nat) a + S10000x128.size a ≤ S10000x128.size a
  h_S10000x128 : 0 < S10000x128.numel
  inb_S128x32_S128x32_0_0 : ∀ a, (![0, 0] : Fin 2 → Nat) a + S128x32.size a ≤ S128x32.size a
  h_S128x32 : 0 < S128x32.numel
  inb_S10000x32_S10000x32_0_0 : ∀ a, (![0, 0] : Fin 2 → Nat) a + S10000x32.size a ≤ S10000x32.size a
  h_S10000x32 : 0 < S10000x32.numel
  shapeCasts_S10000x32_S10000x32 : S10000x32.ShapeCasts S10000x32
  inb_S416x10000_S416x10000_0_0 : ∀ a, (![0, 0] : Fin 2 → Nat) a + S416x10000.size a ≤ S416x10000.size a
  h_S416x10000 : 0 < S416x10000.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S416x32 : S1x32.Broadcasts S416x32
  inb_S416x32_S416x32_0_0 : ∀ a, (![0, 0] : Fin 2 → Nat) a + S416x32.size a ≤ S416x32.size a
  h_S416x32 : 0 < S416x32.numel
  dot_S10000x128_S128x32_S10000x32_1_0_0_1_n_n_wf : DotDims.WF S10000x128 S128x32 S10000x32 [1] [0] [0] [1] [] []
  dot_S416x10000_S10000x32_S416x32_1_0_0_1_n_n_wf : DotDims.WF S416x10000 S10000x32 S416x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S416x10000.size a < S10000x10000.size a
  hwx0_0 : ∀ i : grid0.Coords, EltTy.bits .f32 = 32 ∨ (Rect.unit (s := S10000x10000) (fun a => cc0_transform_0 i a * S416x10000.size a) (fun a => (Pipeline.Clip.of (cc0_transform_0 i a) (S416x10000.size a) (S10000x10000.size a)).extent (S416x10000.size a)) fun a => Pipeline.Clip.inb (Pipeline.Clip.ok_of (hstart0_0 i a))).WholeWords (EltTy.packing .f32)
  hwxs0_0 : ∀ i : grid0.Coords, EltTy.bits .f32 = 32 ∨ (Rect.unit (s := S416x10000) (fun _ => 0) (fun a => (Pipeline.Clip.of (cc0_transform_0 i a) (S416x10000.size a) (S10000x10000.size a)).extent (S416x10000.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x32.size a ≤ S128x32.size a
  hwx0_2 : ∀ i : grid0.Coords, EltTy.bits .f32 = 32 ∨ (Rect.block (s := S128x32) S128x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x32.size a ≤ S1x32.size a
  hwx0_3 : ∀ i : grid0.Coords, EltTy.bits .f32 = 32 ∨ (Rect.block (s := S1x32) S1x32.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hstart0_4 : ∀ (i : grid0.Coords) a, cc0_transform_4 i a * S416x32.size a < S10000x32.size a
  hwx0_4 : ∀ i : grid0.Coords, EltTy.bits .f32 = 32 ∨ (Rect.unit (s := S10000x32) (fun a => cc0_transform_4 i a * S416x32.size a) (fun a => (Pipeline.Clip.of (cc0_transform_4 i a) (S416x32.size a) (S10000x32.size a)).extent (S416x32.size a)) fun a => Pipeline.Clip.inb (Pipeline.Clip.ok_of (hstart0_4 i a))).WholeWords (EltTy.packing .f32)
  hwxs0_4 : ∀ i : grid0.Coords, EltTy.bits .f32 = 32 ∨ (Rect.unit (s := S416x32) (fun _ => 0) (fun a => (Pipeline.Clip.of (cc0_transform_4 i a) (S416x32.size a) (S10000x32.size a)).extent (S416x32.size a)) fun a => (Nat.zero_add _).trans_le (Pipeline.Clip.extent_le (Pipeline.Clip.ok_of (hstart0_4 i a)))).WholeWords (EltTy.packing .f32)

variable [Facts₀]

def dot_S10000x128_S128x32_S10000x32_1_0_0_1_n_n : DotDims S10000x128 S128x32 S10000x32 where
  lhsContracting := [1]
  rhsContracting := [0]
  lhsNonContracting := [0]
  rhsNonContracting := [1]
  lhsBatch := []
  rhsBatch := []
  wf := dot_S10000x128_S128x32_S10000x32_1_0_0_1_n_n_wf
def dot_S416x10000_S10000x32_S416x32_1_0_0_1_n_n : DotDims S416x10000 S10000x32 S416x32 where
  lhsContracting := [1]
  rhsContracting := [0]
  lhsNonContracting := [0]
  rhsNonContracting := [1]
  lhsBatch := []
  rhsBatch := []
  wf := dot_S416x10000_S10000x32_S416x32_1_0_0_1_n_n_wf

abbrev win0_0 : Pipeline.Window sig grid0 :=
  Pipeline.Window.ofSpecClip (Memref.whole main_arg1) S416x10000.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_arg0) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpecClip (Memref.whole main_v1) S416x32.size cc0_transform_4 reads0_4 true false 2 stage0_4 sem0_4
    hrank0 hreads0_4 hstart0_4 nbuf0_4 (Memref.isWhole_whole _) hwx0_4 hwxs0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x32 : Shape := ⟨2, ![128, 32]⟩
abbrev S32 : Shape := ⟨1, ![32]⟩
abbrev S10000x32 : Shape := ⟨2, ![10000, 32]⟩
abbrev S1x32 : Shape := ⟨2, ![1, 32]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x32, .f32⟩
  | .hbm, ⟨3, _⟩ => ⟨S32, .f32⟩
  | .hbm, ⟨4, _⟩ => ⟨S10000x32, .f32⟩
  | .hbm, ⟨5, _⟩ => ⟨S10000x32, .f32⟩
  | .hbm, ⟨6, _⟩ => ⟨S1x32, .f32⟩
  | .hbm, ⟨7, _⟩ => ⟨S10000x32, .f32⟩
  | .hbm, ⟨8, _⟩ => ⟨S10000x32, .f32⟩
  | .hbm, ⟨9, _⟩ => ⟨S10000x32, .f32⟩
  | .hbm, ⟨10, _⟩ => ⟨S10000x32, .f32⟩
  | .hbm, ⟨11, _⟩ => ⟨S_, .f32⟩
  | .hbm, ⟨12, _⟩ => ⟨S10000x32, .f32⟩
  | .hbm, ⟨13, _⟩ => ⟨S10000x32, .f32⟩
  | .hbm, ⟨14, _⟩ => ⟨S_, .f32⟩
  | .hbm, ⟨15, _⟩ => ⟨S10000x32, .f32⟩
  | .hbm, ⟨16, _⟩ => ⟨S10000x32, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩

abbrev nD : Nat := 1
abbrev τ : Topo := Topo.v7x

variable {F : FTy → Type} [FloatOps F]

class Facts₀ : Prop where
  bcast_S32_S1x32_1 : S32.BroadcastsInDim S1x32 (![1] : Fin 1 → Fin S1x32.rank)
  bcast_S1x32_S10000x32_0_1 : S1x32.BroadcastsInDim S10000x32 (![0, 1] : Fin 2 → Fin S10000x32.rank)
  bcast_S_S10000x32 : S_.BroadcastsInDim S10000x32 (![] : Fin 0 → Fin S10000x32.rank)
  dot_S10000x128_S128x32_S10000x32_1_0_0_1_n_n_wf : DotDims.WF S10000x128 S128x32 S10000x32 [1] [0] [0] [1] [] []
  dot_S10000x10000_S10000x32_S10000x32_1_0_0_1_n_n_wf : DotDims.WF S10000x10000 S10000x32 S10000x32 [1] [0] [0] [1] [] []

variable [Facts₀]

def dot_S10000x128_S128x32_S10000x32_1_0_0_1_n_n : DotDims S10000x128 S128x32 S10000x32 where
  lhsContracting := [1]
  rhsContracting := [0]
  lhsNonContracting := [0]
  rhsNonContracting := [1]
  lhsBatch := []
  rhsBatch := []
  wf := dot_S10000x128_S128x32_S10000x32_1_0_0_1_n_n_wf
def dot_S10000x10000_S10000x32_S10000x32_1_0_0_1_n_n : DotDims S10000x10000 S10000x32 S10000x32 where
  lhsContracting := [1]
  rhsContracting := [0]
  lhsNonContracting := [0]
  rhsNonContracting := [1]
  lhsBatch := []
  rhsBatch := []
  wf := dot_S10000x10000_S10000x32_S10000x32_1_0_0_1_n_n_wf

class Facts : Prop extends Facts₀ where

variable [Facts]
-- ==== Proof.KernelRun.lean ====
/-
  The kernel body of the graph-convolution layer run once on arbitrary whole buffers (the program as printed, read at any float type).

  The body has one branch: at the grid's first point it multiplies the feature buffer into the weight buffer and
  stores the product (the support matrix) whole into the scratch buffer, which it never writes again; at every
  point it then multiplies the adjacency block into the scratch, adds the bias row, applies the logistic function and
  stores the result whole into the output block. Both runs below are stated for any float type: every value is named
  by the body's two payload terms, never computed.
-/
import proofs.«116405_g11184094839116_rerun558fix_278_30_alg».proof.Proof.Gen.Kernel.Frame
import proofs.«116405_g11184094839116_rerun558fix_278_30_alg».proof.Proof.Gen.Kernel.Skeleton
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

section Whole

variable {Val : EltTy → Type} [∀ e, Nonempty (Val e)] {sig' : RefSig} {κ : Kind} {sp : Space} {S : Shape} {e : EltTy}

/-- One store through the whole-shape rectangle at zero offsets leaves its payload, whatever the buffer held. -/
theorem read_writes_whole (v : View sig' κ sp S e) (f : v.ty.Contents Val) {off : Fin S.rank → Nat} (h : off = fun _ => 0)
    (inb : ∀ a, off a + S.size a ≤ S.size a) (w : S.Idx → Val e) :
    v.read Val (v.writes Val f [(⟨Rect.unit off S.size inb, w⟩ : View.Piece Val S e)]) = w := by
  rw [View.read_writes_eq_canon _ _ _ (fun y => ⟨_, List.mem_singleton_self _, View.mem_set_unit_zero h inb y⟩),
    View.canon_unit_zero h]

/-- A load of a whole memref through the whole-shape rectangle at zero offsets reads its contents. -/
theorem readAt_whole (mr : Memref sig' κ sp S e) (hm : mr.IsWhole) {off : Fin S.rank → Nat} (h : off = fun _ => 0)
    (inb : ∀ a, off a + S.size a ≤ S.size a) (X : S.Idx → Val e) :
    mr.view.readAt Val (Rect.unit off S.size inb).toLoadRect (hm.unread X) = X := by
  rw [View.readAt_eq_ld, hm.read_unread, View.ld_unit_zero h]

end Whole

/-- The body's one branch condition: the grid coordinate is zero. -/
abbrev condA (i : grid0.Coords) : Prop :=
  (Scalar.cmpi .ne (Scalar.extui (Scalar.cmpi .eq (BitVec.ofNat 32 (i 0).val) 0#32)) 0#32) = 1#1

theorem zero2 : (![0, 0] : Fin 2 → Nat) = fun _ => 0 := funext fun a => by fin_cases a <;> rfl

/-- The body at a point after the first, on any whole memrefs: the scratch is read as handed, the output buffer ends
    holding the second payload of the adjacency block, the scratch and the bias row; everything else is as it was. -/
theorem runB (c : Dev nD) (i : grid0.Coords)
    (arg1 : Memref sig .tc .vmem S416x10000 .f32) (harg1 : arg1.IsWhole) (arg2 : Memref sig .tc .vmem S10000x128 .f32) (harg2 : arg2.IsWhole)
    (arg3 : Memref sig .tc .vmem S128x32 .f32) (harg3 : arg3.IsWhole) (arg4 : Memref sig .tc .vmem S1x32 .f32) (harg4 : arg4.IsWhole)
    (arg5 : Memref sig .tc .vmem S416x32 .f32) (harg5 : arg5.IsWhole) (arg6 : Memref sig .tc .vmem S10000x32 .f32) (harg6 : arg6.IsWhole)
    (hc : ¬condA i)
    (x1 : Vec F S416x10000 .f32) (x2 : Vec F S10000x128 .f32) (x3 : Vec F S128x32 .f32) (x4 : Vec F S1x32 .f32) (s : Vec F S10000x32 .f32)
    (E : Set ℕ) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ (∃ d, owns (c : Thread nD τ) arg5 fullShare d) ∗ owns (c : Thread nD τ) arg6 fullShare s
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare (k0_pay2 x1 s x4) ∗ owns (c : Thread nD τ) arg6 fullShare s) -∗ K ⟨⟩))
      ⊢ wp frame (wpE (defs₀ (F := F)) Variants.none c none) E (cc0__gcn_block_kernel i arg1 harg1 arg2 harg2 arg3 harg3 arg4 harg4 arg5 harg5 arg6 harg6) K := by
  simp only [cc0__gcn_block_kernel_eq_skeleton]; unfold cc0__gcn_block_kernel_skel
  unfold owns
  iintro ⟨⟨%f1, %hf1, H1⟩, ⟨%f2, %hf2, H2⟩, ⟨%f3, %hf3, H3⟩, ⟨%f4, %hf4, H4⟩, ⟨%d5, %f5, -, H5⟩, ⟨%f6, %hf6, H6⟩, Hk⟩
  obtain rfl := harg1.eq_unread hf1; obtain rfl := harg2.eq_unread hf2; obtain rfl := harg3.eq_unread hf3
  obtain rfl := harg4.eq_unread hf4; obtain rfl := harg6.eq_unread hf6
  sl_exec (disch := exact hc)
  sl_step
  iapply Hk
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr
    swap; · iexact H5
    ipureintro
    rw [read_writes_whole _ _ zero2, readAt_whole arg1 harg1 zero2, readAt_whole arg6 harg6 zero2, readAt_whole arg4 harg4 zero2]
  · iexists _; isplitr; · ipureintro; exact hf6
    iexact H6

/-- The body at the first point, on any whole memrefs: the scratch (handed at anything) is stored whole with the first
    payload of the feature and weight buffers and read back; the output buffer ends holding the second payload over it. -/
theorem runA (c : Dev nD) (i : grid0.Coords)
    (arg1 : Memref sig .tc .vmem S416x10000 .f32) (harg1 : arg1.IsWhole) (arg2 : Memref sig .tc .vmem S10000x128 .f32) (harg2 : arg2.IsWhole)
    (arg3 : Memref sig .tc .vmem S128x32 .f32) (harg3 : arg3.IsWhole) (arg4 : Memref sig .tc .vmem S1x32 .f32) (harg4 : arg4.IsWhole)
    (arg5 : Memref sig .tc .vmem S416x32 .f32) (harg5 : arg5.IsWhole) (arg6 : Memref sig .tc .vmem S10000x32 .f32) (harg6 : arg6.IsWhole)
    (hc : condA i)
    (x1 : Vec F S416x10000 .f32) (x2 : Vec F S10000x128 .f32) (x3 : Vec F S128x32 .f32) (x4 : Vec F S1x32 .f32)
    (E : Set ℕ) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ (∃ d, owns (c : Thread nD τ) arg5 fullShare d) ∗ (∃ d, owns (c : Thread nD τ) arg6 fullShare d)
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare (k0_pay2 x1 (k0_pay1 x2 x3) x4)
            ∗ owns (c : Thread nD τ) arg6 fullShare (k0_pay1 x2 x3)) -∗ K ⟨⟩))
      ⊢ wp frame (wpE (defs₀ (F := F)) Variants.none c none) E (cc0__gcn_block_kernel i arg1 harg1 arg2 harg2 arg3 harg3 arg4 harg4 arg5 harg5 arg6 harg6) K := by
  simp only [cc0__gcn_block_kernel_eq_skeleton]; unfold cc0__gcn_block_kernel_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, Hk⟩
  obtain rfl := harg1.eq_unread hf1; obtain rfl := harg2.eq_unread hf2; obtain rfl := harg3.eq_unread hf3
  obtain rfl := harg4.eq_unread hf4
  sl_exec (disch := exact hc)
  sl_step
  iapply Hk
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr
    swap; · iexact H5
    ipureintro
    sl_unfold_words
    rw [read_writes_whole _ _ zero2, View.readCov_unit_zero (S := S10000x32) _ zero2, readAt_whole arg1 harg1 zero2,
      readAt_whole arg2 harg2 zero2, readAt_whole arg3 harg3 zero2, readAt_whole arg4 harg4 zero2]
  · iexists _; isplitr
    swap; · iexact H6
    ipureintro
    sl_unfold_words
    rw [read_writes_whole _ _ zero2, readAt_whole arg2 harg2 zero2, readAt_whole arg3 harg3 zero2]

end Cert.Kernel.Hand

end
-- ==== Proof.KernelFrame.lean ====
/-
  The frame of the graph-convolution kernel: every weakly fair execution of its program terminates, nothing faults,
  and the four argument arrays end as they began.

  The proof data constrain nothing about what the body leaves in any staging buffer (each relation is `True`) and
  hold the scratch buffer at some contents between points. That is all a frame needs here: the body only loads whole
  buffers, computes, and stores whole buffers, so it runs from any contents; an input array is never written, so the
  run's post reads it back at its entry contents. In particular nothing is said of the rows of the adjacency
  buffer past the array's end at the clipped block, nor of the output rows computed from them.
-/
import proofs.«116405_g11184094839116_rerun558fix_278_30_alg».proof.Proof.KernelRun

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The scratch buffer that carries the support matrix, as a whole memref. -/
abbrev scM : Memref sig .tc .vmem S10000x32 .f32 := Memref.whole cc0_scratch0

/-- The region's own invariant: the scratch buffer at some contents, and the generator register at some state. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-- Proof data that name nothing: the arrays as the region finds them; any contents may be left in any buffer. -/
def rdat (c : Dev nD) : RDat τ (Elt F) Unit ℕ (UR sig nD τ) ℕ cfg0 c where
  A w := V m c (Pipeline.arrRef spec0 w)
  after _ _ _ _ := True
  Φ _ := Pipeline.ΦA spec0 c
  q _ := fullShare
  owed _ := 0

/-- The body at any point, from any contents of the five staging buffers: it runs, and hands every buffer back. -/
theorem sound_body (c : Dev nD) (t : Fin cfg0.N) (Y : (w : Fin cfg0.W) → (cfg0.win w).block.Idx → Elt F (cfg0.win w).elt) :
    iprop((rdat m c).Φ t.castSucc ∗ (rdat m c).owesAt () t.castSucc
        ∗ owns (c : Thread nD τ) (st0_0 t) fullShare (Y 0) ∗ owns (c : Thread nD τ) (st0_1 t) fullShare (Y 1)
        ∗ owns (c : Thread nD τ) (st0_2 t) fullShare (Y 2) ∗ owns (c : Thread nD τ) (st0_3 t) fullShare (Y 3)
        ∗ owns (c : Thread nD τ) (st0_4 t) fullShare (Y 4))
      ⊢ wp frame (wpE (defs₀ (F := F)) Variants.none c none) Set.univ (bodyAt0 t) (fun _ =>
          iprop((rdat m c).Φ t.succ ∗ (rdat m c).owesAt () t.succ
            ∗ (∃ X, ⌜True⌝ ∗ owns (c : Thread nD τ) (st0_0 t) fullShare X) ∗ (∃ X, ⌜True⌝ ∗ owns (c : Thread nD τ) (st0_1 t) fullShare X)
            ∗ (∃ X, ⌜True⌝ ∗ owns (c : Thread nD τ) (st0_2 t) fullShare X) ∗ (∃ X, ⌜True⌝ ∗ owns (c : Thread nD τ) (st0_3 t) fullShare X)
            ∗ (∃ X, ⌜True⌝ ∗ owns (c : Thread nD τ) (st0_4 t) fullShare X))) := by
  rw [show (rdat m c).owesAt () t.succ = (rdat m c).owesAt () t.castSucc from rfl,
    show (rdat m c).Φ t.castSucc = Pipeline.ΦA spec0 c from rfl, show (rdat m c).Φ t.succ = Pipeline.ΦA spec0 c from rfl, PhiA_eq]
  iintro ⟨⟨⟨%ds, HS⟩, Hg⟩, Ho, H0, H1, H2, H3, H4⟩
  by_cases hc : condA (grid0.coords t)
  · iapply (runA (F := F) c (grid0.coords t) (win0_0.stage (cfg0.slots t 0)) (hstage0_0 ((cfg0.slots t 0).cast nbuf0_0))
      (win0_1.stage (cfg0.slots t 1)) (hstage0_1 ((cfg0.slots t 1).cast nbuf0_1)) (win0_2.stage (cfg0.slots t 2)) (hstage0_2 ((cfg0.slots t 2).cast nbuf0_2))
      (win0_3.stage (cfg0.slots t 3)) (hstage0_3 ((cfg0.slots t 3).cast nbuf0_3)) (win0_4.stage (cfg0.slots t 4)) (hstage0_4 ((cfg0.slots t 4).cast nbuf0_4))
      scM (Memref.isWhole_whole _) hc (Y 0) (Y 1) (Y 2) (Y 3) Set.univ _)
    isplitl [H0]; · iexact H0
    isplitl [H1]; · iexact H1
    isplitl [H2]; · iexact H2
    isplitl [H3]; · iexact H3
    isplitl [H4]; · iexists _; iexact H4
    isplitl [HS]; · iexists _; iexact HS
    iintro ⟨H0, H1, H2, H3, H4, HS⟩
    isplitl [HS Hg]
    · isplitl [HS]; · iexists _; iexact HS
      iexact Hg
    isplitl [Ho]; · iexact Ho
    isplitl [H0]; · iexists _; isplitr; · ipureintro; trivial
                    iexact H0
    isplitl [H1]; · iexists _; isplitr; · ipureintro; trivial
                    iexact H1
    isplitl [H2]; · iexists _; isplitr; · ipureintro; trivial
                    iexact H2
    isplitl [H3]; · iexists _; isplitr; · ipureintro; trivial
                    iexact H3
    · iexists _; isplitr; · ipureintro; trivial
      iexact H4
  · iapply (runB (F := F) c (grid0.coords t) (win0_0.stage (cfg0.slots t 0)) (hstage0_0 ((cfg0.slots t 0).cast nbuf0_0))
      (win0_1.stage (cfg0.slots t 1)) (hstage0_1 ((cfg0.slots t 1).cast nbuf0_1)) (win0_2.stage (cfg0.slots t 2)) (hstage0_2 ((cfg0.slots t 2).cast nbuf0_2))
      (win0_3.stage (cfg0.slots t 3)) (hstage0_3 ((cfg0.slots t 3).cast nbuf0_3)) (win0_4.stage (cfg0.slots t 4)) (hstage0_4 ((cfg0.slots t 4).cast nbuf0_4))
      scM (Memref.isWhole_whole _) hc (Y 0) (Y 1) (Y 2) (Y 3) ds Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, H4, HS⟩
    isplitl [HS Hg]
    · isplitl [HS]; · iexists _; iexact HS
      iexact Hg
    isplitl [Ho]; · iexact Ho
    isplitl [H0]; · iexists _; isplitr; · ipureintro; trivial
                    iexact H0
    isplitl [H1]; · iexists _; isplitr; · ipureintro; trivial
                    iexact H1
    isplitl [H2]; · iexists _; isplitr; · ipureintro; trivial
                    iexact H2
    isplitl [H3]; · iexists _; isplitr; · ipureintro; trivial
                    iexact H3
    · iexists _; isplitr; · ipureintro; trivial
      iexact H4

/-- The library's body obligation for the relational data, at every point. -/
theorem body_obligation (c : Dev nD) : (rdat (F := F) m c).BodyObligation (defs₀ (F := F)) Variants.none () Set.univ := fun t Y _ => by
  rw [bigSep_W0, bigSep_W0]
  exact sound_body m c t Y

-- the launch theorem's implicit arguments are found by unifying its conclusion with this one
set_option backward.isDefEq.respectTransparency.types false in
/-- Every weakly fair execution of the program terminates; every input array ends at its entry contents and every
    buffer the region bypasses as it was. -/
theorem run_frame : θ_run defs (onTc (τ := τ) (main (F := F))) (s₀ m ρ) (RDat.FramePost cfg0 (rdat m) (V m)) :=
  RDat.θ_run_frame cfgs (0 : Fin 1) launch0 defs₀ Variants.none (rdat m) m ρ main
    (hbody := body_obligation m) (hshare := fun c => (rdat m c).share_full fun _ => rfl) (howed := fun _ _ => rfl)
    (V := V m) (hmain := hmain m Variants.none) (hA := fun _ _ => rfl) (hΦ := fun _ _ => rfl)

/-- The frame: the four argument arrays end unchanged (the three the pipeline stages by the run's first clause,
    the bias vector, which only the reshape before the region reads, by its second). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(RDat.FramePost.arr_in h c 1 rfl).trans (V_main_arg0 m c),
      (RDat.FramePost.arr_in h c 0 rfl).trans (V_main_arg1 m c),
      (RDat.FramePost.arr_in h c 2 rfl).trans (V_main_arg2 m c),
      ((h c).2 main_arg3 (Pipeline.mem_restRefs_of main_arg3 (by decide) (by decide))).trans (V_main_arg3 m c)⟩) (run_frame m ρ)

end Cert.Kernel.Hand

end
-- ==== Proof.IdealRun.lean ====
/-
  The kernel body of the graph-convolution layer run once on arbitrary whole buffers (the idealized program, read at any float type).

  The body has one branch: at the grid's first point it multiplies the feature buffer into the weight buffer and
  stores the product (the support matrix) whole into the scratch buffer, which it never writes again; at every
  point it then multiplies the adjacency block into the scratch, adds the bias row, applies the logistic function and
  stores the result whole into the output block. Both runs below are stated for any float type: every value is named
  by the body's two payload terms, never computed.
-/
import proofs.«116405_g11184094839116_rerun558fix_278_30_alg».proof.Proof.Gen.KernelIdeal.Frame
import proofs.«116405_g11184094839116_rerun558fix_278_30_alg».proof.Proof.Gen.KernelIdeal.Skeleton
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

section Whole

variable {Val : EltTy → Type} [∀ e, Nonempty (Val e)] {sig' : RefSig} {κ : Kind} {sp : Space} {S : Shape} {e : EltTy}

/-- One store through the whole-shape rectangle at zero offsets leaves its payload, whatever the buffer held. -/
theorem read_writes_whole (v : View sig' κ sp S e) (f : v.ty.Contents Val) {off : Fin S.rank → Nat} (h : off = fun _ => 0)
    (inb : ∀ a, off a + S.size a ≤ S.size a) (w : S.Idx → Val e) :
    v.read Val (v.writes Val f [(⟨Rect.unit off S.size inb, w⟩ : View.Piece Val S e)]) = w := by
  rw [View.read_writes_eq_canon _ _ _ (fun y => ⟨_, List.mem_singleton_self _, View.mem_set_unit_zero h inb y⟩),
    View.canon_unit_zero h]

/-- A load of a whole memref through the whole-shape rectangle at zero offsets reads its contents. -/
theorem readAt_whole (mr : Memref sig' κ sp S e) (hm : mr.IsWhole) {off : Fin S.rank → Nat} (h : off = fun _ => 0)
    (inb : ∀ a, off a + S.size a ≤ S.size a) (X : S.Idx → Val e) :
    mr.view.readAt Val (Rect.unit off S.size inb).toLoadRect (hm.unread X) = X := by
  rw [View.readAt_eq_ld, hm.read_unread, View.ld_unit_zero h]

end Whole

/-- The body's one branch condition: the grid coordinate is zero. -/
abbrev condA (i : grid0.Coords) : Prop :=
  (Scalar.cmpi .ne (Scalar.extui (Scalar.cmpi .eq (BitVec.ofNat 32 (i 0).val) 0#32)) 0#32) = 1#1

theorem zero2 : (![0, 0] : Fin 2 → Nat) = fun _ => 0 := funext fun a => by fin_cases a <;> rfl

/-- The body at a point after the first, on any whole memrefs: the scratch is read as handed, the output buffer ends
    holding the second payload of the adjacency block, the scratch and the bias row; everything else is as it was. -/
theorem runB (c : Dev nD) (i : grid0.Coords)
    (arg1 : Memref sig .tc .vmem S416x10000 .f32) (harg1 : arg1.IsWhole) (arg2 : Memref sig .tc .vmem S10000x128 .f32) (harg2 : arg2.IsWhole)
    (arg3 : Memref sig .tc .vmem S128x32 .f32) (harg3 : arg3.IsWhole) (arg4 : Memref sig .tc .vmem S1x32 .f32) (harg4 : arg4.IsWhole)
    (arg5 : Memref sig .tc .vmem S416x32 .f32) (harg5 : arg5.IsWhole) (arg6 : Memref sig .tc .vmem S10000x32 .f32) (harg6 : arg6.IsWhole)
    (hc : ¬condA i)
    (x1 : Vec F S416x10000 .f32) (x2 : Vec F S10000x128 .f32) (x3 : Vec F S128x32 .f32) (x4 : Vec F S1x32 .f32) (s : Vec F S10000x32 .f32)
    (E : Set ℕ) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ (∃ d, owns (c : Thread nD τ) arg5 fullShare d) ∗ owns (c : Thread nD τ) arg6 fullShare s
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare (k0_pay2 x1 s x4) ∗ owns (c : Thread nD τ) arg6 fullShare s) -∗ K ⟨⟩))
      ⊢ wp frame (wpE (defs₀ (F := F)) Variants.none c none) E (cc0__gcn_block_kernel i arg1 harg1 arg2 harg2 arg3 harg3 arg4 harg4 arg5 harg5 arg6 harg6) K := by
  simp only [cc0__gcn_block_kernel_eq_skeleton]; unfold cc0__gcn_block_kernel_skel
  unfold owns
  iintro ⟨⟨%f1, %hf1, H1⟩, ⟨%f2, %hf2, H2⟩, ⟨%f3, %hf3, H3⟩, ⟨%f4, %hf4, H4⟩, ⟨%d5, %f5, -, H5⟩, ⟨%f6, %hf6, H6⟩, Hk⟩
  obtain rfl := harg1.eq_unread hf1; obtain rfl := harg2.eq_unread hf2; obtain rfl := harg3.eq_unread hf3
  obtain rfl := harg4.eq_unread hf4; obtain rfl := harg6.eq_unread hf6
  sl_exec (disch := exact hc)
  sl_step
  iapply Hk
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr
    swap; · iexact H5
    ipureintro
    rw [read_writes_whole _ _ zero2, readAt_whole arg1 harg1 zero2, readAt_whole arg6 harg6 zero2, readAt_whole arg4 harg4 zero2]
  · iexists _; isplitr; · ipureintro; exact hf6
    iexact H6

/-- The body at the first point, on any whole memrefs: the scratch (handed at anything) is stored whole with the first
    payload of the feature and weight buffers and read back; the output buffer ends holding the second payload over it. -/
theorem runA (c : Dev nD) (i : grid0.Coords)
    (arg1 : Memref sig .tc .vmem S416x10000 .f32) (harg1 : arg1.IsWhole) (arg2 : Memref sig .tc .vmem S10000x128 .f32) (harg2 : arg2.IsWhole)
    (arg3 : Memref sig .tc .vmem S128x32 .f32) (harg3 : arg3.IsWhole) (arg4 : Memref sig .tc .vmem S1x32 .f32) (harg4 : arg4.IsWhole)
    (arg5 : Memref sig .tc .vmem S416x32 .f32) (harg5 : arg5.IsWhole) (arg6 : Memref sig .tc .vmem S10000x32 .f32) (harg6 : arg6.IsWhole)
    (hc : condA i)
    (x1 : Vec F S416x10000 .f32) (x2 : Vec F S10000x128 .f32) (x3 : Vec F S128x32 .f32) (x4 : Vec F S1x32 .f32)
    (E : Set ℕ) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ (∃ d, owns (c : Thread nD τ) arg5 fullShare d) ∗ (∃ d, owns (c : Thread nD τ) arg6 fullShare d)
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare (k0_pay2 x1 (k0_pay1 x2 x3) x4)
            ∗ owns (c : Thread nD τ) arg6 fullShare (k0_pay1 x2 x3)) -∗ K ⟨⟩))
      ⊢ wp frame (wpE (defs₀ (F := F)) Variants.none c none) E (cc0__gcn_block_kernel i arg1 harg1 arg2 harg2 arg3 harg3 arg4 harg4 arg5 harg5 arg6 harg6) K := by
  simp only [cc0__gcn_block_kernel_eq_skeleton]; unfold cc0__gcn_block_kernel_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, Hk⟩
  obtain rfl := harg1.eq_unread hf1; obtain rfl := harg2.eq_unread hf2; obtain rfl := harg3.eq_unread hf3
  obtain rfl := harg4.eq_unread hf4
  sl_exec (disch := exact hc)
  sl_step
  iapply Hk
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr
    swap; · iexact H5
    ipureintro
    sl_unfold_words
    rw [read_writes_whole _ _ zero2, View.readCov_unit_zero (S := S10000x32) _ zero2, readAt_whole arg1 harg1 zero2,
      readAt_whole arg2 harg2 zero2, readAt_whole arg3 harg3 zero2, readAt_whole arg4 harg4 zero2]
  · iexists _; isplitr
    swap; · iexact H6
    ipureintro
    sl_unfold_words
    rw [read_writes_whole _ _ zero2, readAt_whole arg2 harg2 zero2, readAt_whole arg3 harg3 zero2]

end Cert.KernelIdeal.Hand

end
-- ==== Proof.IdealData.lean ====
/-
  The proof data of the idealized graph-convolution kernel, with every buffer's contents named.

  After the body at a point: the adjacency staging buffer holds its block of the adjacency array on the rows inside
  the array (the last block of 416 rows starts at row 9984, so only its first 16 rows are the array's; the other 400
  hold words nothing names); the feature, weight and bias buffers hold their whole arrays; the output buffer holds,
  on the rows inside the array, its block of the layer's result. Between points the scratch buffer holds the support
  matrix: the first payload of the whole feature and weight arrays, stored at the first point and only read afterwards.
-/
import proofs.«116405_g11184094839116_rerun558fix_278_30_alg».proof.Proof.IdealRun
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-- The grid's first point. -/
abbrev t0 : Fin cfg0.N := ⟨0, lt_of_lt_of_eq (by decide : 0 < 25) N_0.symm⟩

/-- The scratch buffer that carries the support matrix, as a whole memref. -/
abbrev scM : Memref sig .tc .vmem S10000x32 .f32 := Memref.whole cc0_scratch0

/-- The support matrix as the body computes it at the first point: the first payload of the feature and weight
    buffers, which hold their whole arrays. -/
def supp (c : Dev nD) : Vec Ideal S10000x32 .f32 := k0_pay1 (F := Ideal) (iblk m c 1 t0) (iblk m c 2 t0)

/-- The adjacency array and the bias row as the region finds them, at their literal types. -/
abbrev adjArr (c : Dev nD) : Vec Ideal S10000x10000 .f32 := V m c main_arg1
abbrev biasRow (c : Dev nD) : Vec Ideal S1x32 .f32 := V m c main_v0

/-- The layer's result over the support matrix: at row r, column q, the logistic function of the adjacency row
    times the support column plus the bias entry. What the output array ends holding. -/
def layerOut (c : Dev nD) : Vec Ideal S10000x32 .f32 := fun i =>
  Ideal.logistic ((∑ k : Fin 10000, adjArr m c (ix2 (i 0) k) * supp m c (ix2 k (i 1))) + biasRow m c (ix2 0 (i 1)))

/-- The region's own invariant: the scratch buffer at some contents, and the generator register at some state. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-- The invariant between points: before the first, the region's own (the scratch at anything); afterwards the
    scratch at the support matrix. -/
def PhiS (c : Dev nD) : ℕ → sProp 𝕄
  | 0 => Pipeline.ΦA spec0 c
  | _ + 1 => iprop(owns (c : Thread nD τ) scM fullShare (supp m c) ∗ (∃ r, prngReg c r))

theorem PhiS_pos (c : Dev nD) (n : ℕ) (hn : n ≠ 0) :
    PhiS m c n = iprop(owns (c : Thread nD τ) scM fullShare (supp m c) ∗ (∃ r, prngReg c r)) := by
  cases n with
  | zero => exact absurd rfl hn
  | succ n => rfl

/-- The adjacency block at point `t` as a whole staging buffer: the array's rows on the part inside the array, zeros past it. -/
def adjBlk (c : Dev nD) (t : Fin cfg0.N) : S416x10000.Idx → Elt Ideal .f32 :=
  win0_0.fill (grid0.coords t) (fun _ => Scalar.ofBits (F := Ideal) .f32 0#32) (iblk m c 0 t)

/-- The output block at point `t` as a whole staging buffer: the layer's rows inside the array, zeros past it. -/
def outBlk (c : Dev nD) (t : Fin cfg0.N) : S416x32.Idx → Elt Ideal .f32 :=
  win0_4.fill (grid0.coords t) (fun _ => Scalar.ofBits (F := Ideal) .f32 0#32)
    (((cfg0.win 4).blk t).view.read (Elt Ideal) (layerOut m c))

/-- The proof data: the arrays as the region finds them; after the body the adjacency buffer at its block filled out
    with zeros past the array's end, the three resident buffers at their blocks, the output buffer at its block of
    the layer's result filled out likewise; the invariant `PhiS`; nothing owed; full shares. -/
def dats (_ : Fin 1) (c : Dev nD) : Dat τ (Elt Ideal) Unit ℕ (UR sig nD τ) ℕ cfg0 c where
  A w := V m c (Pipeline.arrRef spec0 w)
  after w t := match w with
    | ⟨0, _⟩ => adjBlk m c t
    | ⟨1, _⟩ => iblk m c 1 t
    | ⟨2, _⟩ => iblk m c 2 t
    | ⟨3, _⟩ => iblk m c 3 t
    | ⟨4, _⟩ => outBlk m c t
  Φ t := PhiS m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = adjBlk m c t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = outBlk m c t := by dsimp only [dats]

/-- What the write-back at point `t` writes is the layer's block there (the filler is cut off). -/
theorem flushed4 (c : Dev nD) (t : Fin cfg0.N) :
    (dats m 0 c).flushed 4 t = ((cfg0.win 4).blk t).view.read (Elt Ideal) (layerOut m c) := by
  show (cfg0.win 4).cut (cfg0.grid.coords t) ((dats m 0 c).after 4 t) = _
  rw [after0_4]; unfold outBlk
  exact win0_4.cut_fill _ _ _

/-- What the body finds: the adjacency buffer just fetched — its block on the rows inside the array, `d` elsewhere; -/
theorem before0_0 (c : Dev nD) (t : Fin cfg0.N) (d) :
    (dats m 0 c).before 0 t d = (cfg0.win 0).fill (cfg0.grid.coords t) d (iblk m c 0 t) := by
  rw [(dats m 0 c).before_fetched 0 t (fetch0_0 t) d]
  unfold Dat.fetched Dat.blockOf iblk; rw [A_eq]
/-- the three resident buffers at their blocks, fetched at this point or not; -/
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
/-- the output buffer at contents nothing names (every point writes it back). -/
theorem before0_4 (c : Dev nD) (t : Fin cfg0.N) (d) : (dats m 0 c).before 4 t d = d :=
  (dats m 0 c).before_out_reset 4 rfl t
    (by by_cases h : t.val = 0
        · exact .inl h
        · exact .inr ⟨h, flush0_4 _⟩) d

end Cert.KernelIdeal.Hand

end
-- ==== Proof.IdealPayload.lean ====
/-
  The body's two payloads read at an index, over the extended reals.

  The first payload is the matrix product of the feature block [10000, 128] and the weight block [128, 32] into a zero
  accumulator: at (k, q) the sum over j of x[k, j] · w[j, q]. The second is the product of the adjacency block
  [416, 10000] and the scratch [10000, 32] into a zero accumulator, plus the bias row broadcast down the rows, through
  the logistic function: at (p, q) it is  logistic(Σ_k a[p, k] · s[k, q] + b[0, q]).  Row p of the result reads row p of
  the adjacency block only, which is why the rows of the staging buffer past the array's end never reach a kept row.
-/
import proofs.«116405_g11184094839116_rerun558fix_278_30_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Hand

open Cert.KernelIdeal Cert.KernelIdeal.Gen
open Idealize.ShloMosaic Idealize.ShloMosaic.ValueIdx

/-! ## The first product's operand indices -/

theorem lhs1_0 (i : S10000x32.Idx) (q : dot_S10000x128_S128x32_S10000x32_1_0_0_1_n_n.contr.Idx) : (dot_S10000x128_S128x32_S10000x32_1_0_0_1_n_n.lhsIdx i q 0).val = (i 0).val := by
  unfold DotDims.lhsIdx
  rw [dif_neg (show ¬(0 : Fin S10000x128.rank) ∈ dot_S10000x128_S128x32_S10000x32_1_0_0_1_n_n.lhsBatch by decide), dif_pos (show (0 : Fin S10000x128.rank) ∈ dot_S10000x128_S128x32_S10000x32_1_0_0_1_n_n.lhsNonContracting by decide)]
  rfl
theorem lhs1_1 (i : S10000x32.Idx) (q : dot_S10000x128_S128x32_S10000x32_1_0_0_1_n_n.contr.Idx) : (dot_S10000x128_S128x32_S10000x32_1_0_0_1_n_n.lhsIdx i q 1).val = (q ⟨0, by decide⟩).val :=
  dot_S10000x128_S128x32_S10000x32_1_0_0_1_n_n.lhsIdx_val_of_single rfl i q
theorem rhs1_0 (i : S10000x32.Idx) (q : dot_S10000x128_S128x32_S10000x32_1_0_0_1_n_n.contr.Idx) : (dot_S10000x128_S128x32_S10000x32_1_0_0_1_n_n.rhsIdx i q 0).val = (q ⟨0, by decide⟩).val :=
  dot_S10000x128_S128x32_S10000x32_1_0_0_1_n_n.rhsIdx_val_of_single rfl i q
theorem rhs1_1 (i : S10000x32.Idx) (q : dot_S10000x128_S128x32_S10000x32_1_0_0_1_n_n.contr.Idx) : (dot_S10000x128_S128x32_S10000x32_1_0_0_1_n_n.rhsIdx i q 1).val = (i 1).val := by
  unfold DotDims.rhsIdx
  rw [dif_neg (show ¬(1 : Fin S128x32.rank) ∈ dot_S10000x128_S128x32_S10000x32_1_0_0_1_n_n.rhsBatch by decide), dif_pos (show (1 : Fin S128x32.rank) ∈ dot_S10000x128_S128x32_S10000x32_1_0_0_1_n_n.rhsNonContracting by decide)]
  rfl

/-- The first payload at row `k`, column `q`: the feature row times the weight column. -/
theorem pay1_apply (x : Vec Ideal S10000x128 .f32) (w : Vec Ideal S128x32 .f32) (k : Fin 10000) (q : Fin 32) :
    k0_pay1 (F := Ideal) x w (ix2 k q) = ∑ j : Fin 128, x (ix2 k j) * w (ix2 j q) := by
  unfold k0_pay1
  rw [shapeCast_self]
  show FloatOps.matmul (φ₁ := .f32) (φ₂ := .f32) dot_S10000x128_S128x32_S10000x32_1_0_0_1_n_n none x w (constant (F := Ideal) S10000x32 .f32 0x00000000#32) (ix2 k q) = _
  rw [Ideal.matmul_constant_zero_apply, ← Equiv.sum_comp (contrEquiv1 dot_S10000x128_S128x32_S10000x32_1_0_0_1_n_n 128 rfl rfl).symm]
  refine Finset.sum_congr rfl fun j _ => ?_
  have hk := contrEquiv1_symm_val dot_S10000x128_S128x32_S10000x32_1_0_0_1_n_n 128 rfl rfl j
  have el : dot_S10000x128_S128x32_S10000x32_1_0_0_1_n_n.lhsIdx (ix2 k q) ((contrEquiv1 dot_S10000x128_S128x32_S10000x32_1_0_0_1_n_n 128 rfl rfl).symm j) = ix2 k j := funext fun a => Fin.ext (by
    match a with
    | ⟨0, _⟩ => exact lhs1_0 _ _
    | ⟨1, _⟩ => exact (lhs1_1 _ _).trans hk)
  have er : dot_S10000x128_S128x32_S10000x32_1_0_0_1_n_n.rhsIdx (ix2 k q) ((contrEquiv1 dot_S10000x128_S128x32_S10000x32_1_0_0_1_n_n 128 rfl rfl).symm j) = ix2 j q := funext fun a => Fin.ext (by
    match a with
    | ⟨0, _⟩ => exact (rhs1_0 _ _).trans hk
    | ⟨1, _⟩ => exact rhs1_1 _ _)
  rw [el, er]

/-! ## The second product's operand indices -/

theorem lhs2_0 (i : S416x32.Idx) (q : dot_S416x10000_S10000x32_S416x32_1_0_0_1_n_n.contr.Idx) : (dot_S416x10000_S10000x32_S416x32_1_0_0_1_n_n.lhsIdx i q 0).val = (i 0).val := by
  unfold DotDims.lhsIdx
  rw [dif_neg (show ¬(0 : Fin S416x10000.rank) ∈ dot_S416x10000_S10000x32_S416x32_1_0_0_1_n_n.lhsBatch by decide), dif_pos (show (0 : Fin S416x10000.rank) ∈ dot_S416x10000_S10000x32_S416x32_1_0_0_1_n_n.lhsNonContracting by decide)]
  rfl
theorem lhs2_1 (i : S416x32.Idx) (q : dot_S416x10000_S10000x32_S416x32_1_0_0_1_n_n.contr.Idx) : (dot_S416x10000_S10000x32_S416x32_1_0_0_1_n_n.lhsIdx i q 1).val = (q ⟨0, by decide⟩).val :=
  dot_S416x10000_S10000x32_S416x32_1_0_0_1_n_n.lhsIdx_val_of_single rfl i q
theorem rhs2_0 (i : S416x32.Idx) (q : dot_S416x10000_S10000x32_S416x32_1_0_0_1_n_n.contr.Idx) : (dot_S416x10000_S10000x32_S416x32_1_0_0_1_n_n.rhsIdx i q 0).val = (q ⟨0, by decide⟩).val :=
  dot_S416x10000_S10000x32_S416x32_1_0_0_1_n_n.rhsIdx_val_of_single rfl i q
theorem rhs2_1 (i : S416x32.Idx) (q : dot_S416x10000_S10000x32_S416x32_1_0_0_1_n_n.contr.Idx) : (dot_S416x10000_S10000x32_S416x32_1_0_0_1_n_n.rhsIdx i q 1).val = (i 1).val := by
  unfold DotDims.rhsIdx
  rw [dif_neg (show ¬(1 : Fin S10000x32.rank) ∈ dot_S416x10000_S10000x32_S416x32_1_0_0_1_n_n.rhsBatch by decide), dif_pos (show (1 : Fin S10000x32.rank) ∈ dot_S416x10000_S10000x32_S416x32_1_0_0_1_n_n.rhsNonContracting by decide)]
  rfl

/-- The adjacency block times the scratch, at row `p`, column `q`. -/
theorem matmul2_apply (a : Vec Ideal S416x10000 .f32) (s : Vec Ideal S10000x32 .f32) (p : Fin 416) (q : Fin 32) :
    FloatOps.matmul (φ₁ := .f32) (φ₂ := .f32) dot_S416x10000_S10000x32_S416x32_1_0_0_1_n_n none a s (constant (F := Ideal) S416x32 .f32 0x00000000#32) (ix2 p q)
      = ∑ k : Fin 10000, a (ix2 p k) * s (ix2 k q) := by
  rw [Ideal.matmul_constant_zero_apply, ← Equiv.sum_comp (contrEquiv1 dot_S416x10000_S10000x32_S416x32_1_0_0_1_n_n 10000 rfl rfl).symm]
  refine Finset.sum_congr rfl fun k _ => ?_
  have hk := contrEquiv1_symm_val dot_S416x10000_S10000x32_S416x32_1_0_0_1_n_n 10000 rfl rfl k
  have el : dot_S416x10000_S10000x32_S416x32_1_0_0_1_n_n.lhsIdx (ix2 p q) ((contrEquiv1 dot_S416x10000_S10000x32_S416x32_1_0_0_1_n_n 10000 rfl rfl).symm k) = ix2 p k := funext fun a => Fin.ext (by
    match a with
    | ⟨0, _⟩ => exact lhs2_0 _ _
    | ⟨1, _⟩ => exact (lhs2_1 _ _).trans hk)
  have er : dot_S416x10000_S10000x32_S416x32_1_0_0_1_n_n.rhsIdx (ix2 p q) ((contrEquiv1 dot_S416x10000_S10000x32_S416x32_1_0_0_1_n_n 10000 rfl rfl).symm k) = ix2 k q := funext fun a => Fin.ext (by
    match a with
    | ⟨0, _⟩ => exact (rhs2_0 _ _).trans hk
    | ⟨1, _⟩ => exact rhs2_1 _ _)
  rw [el, er]

/-- The bias row broadcast down the 416 rows reads the row's entry of the column. -/
theorem bias_apply (b : Vec Ideal S1x32 .f32) (p : Fin 416) (q : Fin 32) :
    broadcastTo S416x32 (shapeCast S1x32 b shapeCasts_S1x32_S1x32) broadcasts_S1x32_S416x32 (ix2 p q) = b (ix2 0 q) := by
  rw [shapeCast_self]
  exact broadcastTo_apply b broadcasts_S1x32_S416x32 (ix2 p q) (ix2 0 q) (fun a => match a with
    | ⟨0, _⟩ => by show (0 : Nat) = if (1 : Nat) = 1 then 0 else (p : Nat); rw [if_pos rfl]
    | ⟨1, _⟩ => by show (q : Nat) = if (32 : Nat) = 1 then 0 else (q : Nat); rw [if_neg (by decide)])

/-- The second payload at row `p`, column `q`. -/
theorem pay2_apply (a : Vec Ideal S416x10000 .f32) (s : Vec Ideal S10000x32 .f32) (b : Vec Ideal S1x32 .f32) (p : Fin 416) (q : Fin 32) :
    k0_pay2 (F := Ideal) a s b (ix2 p q) = Ideal.logistic ((∑ k : Fin 10000, a (ix2 p k) * s (ix2 k q)) + b (ix2 0 q)) := by
  unfold k0_pay2
  show Ideal.logistic (FloatOps.matmul (φ₁ := .f32) (φ₂ := .f32) dot_S416x10000_S10000x32_S416x32_1_0_0_1_n_n none a s (constant (F := Ideal) S416x32 .f32 0x00000000#32) (ix2 p q)
    + broadcastTo S416x32 (shapeCast S1x32 b shapeCasts_S1x32_S1x32) broadcasts_S1x32_S416x32 (ix2 p q)) = _
  rw [matmul2_apply, bias_apply]

/-- So two adjacency blocks that agree on row `p` give the second payload the same row `p`. -/
theorem pay2_row (a a' : Vec Ideal S416x10000 .f32) (s : Vec Ideal S10000x32 .f32) (b : Vec Ideal S1x32 .f32) (p : Fin 416) (q : Fin 32)
    (h : ∀ k : Fin 10000, a (ix2 p k) = a' (ix2 p k)) :
    k0_pay2 (F := Ideal) a s b (ix2 p q) = k0_pay2 (F := Ideal) a' s b (ix2 p q) := by
  rw [pay2_apply, pay2_apply]
  exact congrArg (fun z => Ideal.logistic (z + b (ix2 0 q))) (Finset.sum_congr rfl fun k _ => by rw [h k])

end Cert.KernelIdeal.Hand

end
-- ==== Proof.IdealBlocks.lean ====
/-
  The blocks the body reads and writes, at an index.

  Point `t` works on block 24 − t of the rows: its adjacency block starts at row (24 − t)·416 and so does its output
  block. Both windows are cut alike at the array's end (block 24 keeps 16 rows), and their other axis is whole. So a
  row p of the cut block is row (24 − t)·416 + p of the array, and the body's second payload there reads exactly that
  row of the adjacency array, the support matrix and the bias row: the layer's entry.
-/
import proofs.«116405_g11184094839116_rerun558fix_278_30_alg».proof.Proof.IdealData
import proofs.«116405_g11184094839116_rerun558fix_278_30_alg».proof.Proof.IdealPayload

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-- The printed index maps and cuts, decided over the grid: the adjacency and output windows sit at one block row and
    are cut to one row count; their column axes are whole; the resident windows sit at block zero. -/
theorem idx_facts : ∀ t : Fin cfg0.N,
    win0_0.index t (0 : Fin 2) = win0_4.index t (0 : Fin 2) ∧ win0_0.index t (1 : Fin 2) = 0 ∧ win0_4.index t (1 : Fin 2) = 0
    ∧ win0_0.xsize (grid0.coords t) (0 : Fin 2) = win0_4.xsize (grid0.coords t) (0 : Fin 2)
    ∧ win0_0.xsize (grid0.coords t) (1 : Fin 2) = 10000 ∧ win0_4.xsize (grid0.coords t) (1 : Fin 2) = 32
    ∧ win0_3.index t (0 : Fin 2) = 0 ∧ win0_3.index t (1 : Fin 2) = 0
    ∧ win0_4.index t (0 : Fin 2) * 416 + win0_4.xsize (grid0.coords t) (0 : Fin 2) ≤ 10000 :=
  (by decide +kernel : ∀ t : Fin grid0.N, _)

/-- The adjacency buffer as fetched, at a row the fetch fills: the array's row (block row · 416 + p). -/
theorem adj_fetched (c : Dev nD) (t : Fin cfg0.N) (d : S416x10000.Idx → Elt Ideal .f32) (p : Fin 416) (k : Fin 10000)
    (R : Fin 10000) (hp : p.val < win0_0.xsize (grid0.coords t) (0 : Fin 2)) (hR : R.val = win0_0.index t (0 : Fin 2) * 416 + p.val) :
    win0_0.fill (grid0.coords t) d (iblk m c 0 t) (ix2 p k) = adjArr m c (ix2 R k) := by
  obtain ⟨e0, e1, e2, e3, e4, e5, e6, e7, e8⟩ := idx_facts t
  have hm : win0_0.moved (grid0.coords t) (ix2 p k) = true := (win0_0.moved_iff _ _).mpr fun a => by
    match a with
    | ⟨0, _⟩ => exact hp
    | ⟨1, _⟩ => show k.val < win0_0.xsize (grid0.coords t) (1 : Fin 2); rw [e4]; exact k.isLt
  unfold Window.fill; rw [dif_pos hm]
  unfold iblk; rw [View.read_apply]
  show V m c main_arg1 _ = V m c main_arg1 _
  refine congrArg (V m c main_arg1) (funext fun a => Fin.ext ?_)
  match a with
  | ⟨0, _⟩ => show win0_0.index t (0 : Fin 2) * 416 + 1 * p.val = R.val; omega
  | ⟨1, _⟩ => show win0_0.index t (1 : Fin 2) * 10000 + 1 * k.val = k.val; omega

/-- The bias buffer's block is the whole bias row. -/
theorem bias_blk (c : Dev nD) (t : Fin cfg0.N) (q : Fin 32) : iblk m c 3 t (ix2 0 q) = biasRow m c (ix2 0 q) := by
  obtain ⟨e0, e1, e2, e3, e4, e5, e6, e7, e8⟩ := idx_facts t
  unfold iblk; rw [View.read_apply]
  show V m c main_v0 _ = V m c main_v0 _
  refine congrArg (V m c main_v0) (funext fun a => Fin.ext ?_)
  match a with
  | ⟨0, _⟩ => show win0_3.index t (0 : Fin 2) * 1 + 1 * 0 = 0; omega
  | ⟨1, _⟩ => show win0_3.index t (1 : Fin 2) * 32 + 1 * q.val = q.val; omega

/-- THE OUTPUT BLOCK: on the rows inside the array, what the body stores — the second payload of the adjacency buffer as
    fetched (anything past the array's end), the support matrix and the bias block — is the layer's block there. -/
theorem cut_pay2 (c : Dev nD) (t : Fin cfg0.N) (d : S416x10000.Idx → Elt Ideal .f32) :
    win0_4.cut (grid0.coords t) (k0_pay2 (F := Ideal) (win0_0.fill (grid0.coords t) d (iblk m c 0 t)) (supp m c) (iblk m c 3 t))
      = ((cfg0.win 4).blk t).view.read (Elt Ideal) (layerOut m c) := by
  obtain ⟨e0, e1, e2, e3, e4, e5, e6, e7, e8⟩ := idx_facts t
  funext j
  have hj0 : (j 0).val < win0_4.xsize (grid0.coords t) (0 : Fin 2) := (j 0).isLt
  have hj1 : (j 1).val < win0_4.xsize (grid0.coords t) (1 : Fin 2) := (j 1).isLt
  have hx0 : win0_4.xsize (grid0.coords t) (0 : Fin 2) ≤ 416 := win0_4.xsize_le (grid0.coords t) 0
  let p : Fin 416 := ⟨(j 0).val, by omega⟩
  let q : Fin 32 := ⟨(j 1).val, by omega⟩
  let R : Fin 10000 := ⟨win0_4.index t (0 : Fin 2) * 416 + (j 0).val, by omega⟩
  have hl : win0_4.xinj (grid0.coords t) j = ix2 p q := funext fun a => Fin.ext (by
    match a with
    | ⟨0, _⟩ => rfl
    | ⟨1, _⟩ => rfl)
  have hr : ((cfg0.win 4).blk t).view.emb j = ix2 R q := funext fun a => Fin.ext (by
    match a with
    | ⟨0, _⟩ => show win0_4.index t (0 : Fin 2) * 416 + 1 * (j 0).val = win0_4.index t (0 : Fin 2) * 416 + (j 0).val; omega
    | ⟨1, _⟩ => show win0_4.index t (1 : Fin 2) * 32 + 1 * (j 1).val = (j 1).val; omega)
  show k0_pay2 (F := Ideal) _ _ _ (win0_4.xinj (grid0.coords t) j) = layerOut m c (((cfg0.win 4).blk t).view.emb j)
  rw [hl, hr, pay2_apply, bias_blk]
  unfold layerOut
  refine congrArg (fun z => Ideal.logistic (z + biasRow m c (ix2 0 q))) (Finset.sum_congr rfl fun k _ => ?_)
  rw [adj_fetched m c t d p k R (by show (j 0).val < _; omega) (by show win0_4.index t (0 : Fin 2) * 416 + (j 0).val = win0_0.index t (0 : Fin 2) * 416 + (j 0).val; omega)]

end Cert.KernelIdeal.Hand

end
-- ==== Proof.IdealBody.lean ====
/-
  The body obligation of the idealized kernel at every point.

  At the first point the scratch arrives at anything and leaves holding the support matrix; at every later point it
  arrives and leaves holding the support matrix. Either way the output buffer ends holding the second payload of the
  adjacency buffer as fetched, the support matrix and the bias block, which on the rows inside the array is the layer's
  block: all the obligation asks of a buffer whose block may overhang the array.
-/
import proofs.«116405_g11184094839116_rerun558fix_278_30_alg».proof.Proof.IdealBlocks

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-- The branch is taken at the first point only. -/
theorem condA_iff : ∀ t : Fin cfg0.N, condA (grid0.coords t) ↔ t.val = 0 :=
  (by decide +kernel : ∀ t : Fin grid0.N, condA (grid0.coords t) ↔ t.val = 0)

/-- At the first point the first payload of the resident blocks is the support matrix. -/
theorem supp_first (c : Dev nD) : ∀ t : Fin cfg0.N, t = t0 → k0_pay1 (F := Ideal) (iblk m c 1 t) (iblk m c 2 t) = supp m c := by
  rintro _ rfl; rfl

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns: the two windows whose blocks may overhang stated on the part inside the array. -/
def bodyPost (c : Dev nD) (t : Fin cfg0.N) : sProp 𝕄 :=
  iprop((dats m 0 c).Φ t.succ ∗ (dats m 0 c).owesAt () t.succ
    ∗ (∃ d, owns (c : Thread nD τ) (st0_0 t) fullShare (win0_0.fill (grid0.coords t) d (win0_0.cut (grid0.coords t) ((dats m 0 c).after 0 t))))
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ (∃ d, owns (c : Thread nD τ) (st0_4 t) fullShare (win0_4.fill (grid0.coords t) d (win0_4.cut (grid0.coords t) ((dats m 0 c).after 4 t)))))

set_option maxHeartbeats 1600000 in
theorem sound_body (c : Dev nD) (t : Fin cfg0.N) :
    bodyPre m c t ⊢ wp frame (wpE (defs₀ (F := Ideal)) Variants.none c none) Set.univ (bodyAt0 t) (fun _ => bodyPost m c t) := by
  unfold bodyPre bodyPost
  simp only [before0_0, before0_1, before0_2, before0_3, before0_4, after0_0, after0_1, after0_2, after0_3, after0_4]
  rw [show (dats m 0 c).owesAt () t.succ = (dats m 0 c).owesAt () t.castSucc from rfl,
    show (dats m 0 c).Φ t.castSucc = PhiS m c t.val from rfl, show (dats m 0 c).Φ t.succ = PhiS m c (t.val + 1) from rfl,
    show win0_0.cut (grid0.coords t) (adjBlk m c t) = iblk m c 0 t from win0_0.cut_fill _ _ _,
    show win0_4.cut (grid0.coords t) (outBlk m c t) = ((cfg0.win 4).blk t).view.read (Elt Ideal) (layerOut m c) from win0_4.cut_fill _ _ _,
    show PhiS m c (t.val + 1) = iprop(owns (c : Thread nD τ) scM fullShare (supp m c) ∗ (∃ r, prngReg c r)) from rfl]
  by_cases hz : t.val = 0
  · have hc : condA (grid0.coords t) := (condA_iff t).mpr hz
    have hs := supp_first m c t (Fin.ext hz)
    rw [show PhiS m c t.val = Pipeline.ΦA spec0 c from by rw [hz]; rfl, PhiA_eq, ← hs]
    iintro ⟨⟨⟨%ds, HS⟩, Hg⟩, Ho, ⟨%d0, H0⟩, ⟨%d1, H1⟩, ⟨%d2, H2⟩, ⟨%d3, H3⟩, ⟨%d4, H4⟩⟩
    have hcut : win0_4.cut (grid0.coords t) (k0_pay2 (F := Ideal) (win0_0.fill (grid0.coords t) d0 (iblk m c 0 t))
          (k0_pay1 (F := Ideal) (iblk m c 1 t) (iblk m c 2 t)) (iblk m c 3 t))
        = ((cfg0.win 4).blk t).view.read (Elt Ideal) (layerOut m c) := by
      rw [hs]; exact cut_pay2 m c t d0
    iapply (runA (F := Ideal) c (grid0.coords t) (win0_0.stage (cfg0.slots t 0)) (hstage0_0 ((cfg0.slots t 0).cast nbuf0_0))
      (win0_1.stage (cfg0.slots t 1)) (hstage0_1 ((cfg0.slots t 1).cast nbuf0_1)) (win0_2.stage (cfg0.slots t 2)) (hstage0_2 ((cfg0.slots t 2).cast nbuf0_2))
      (win0_3.stage (cfg0.slots t 3)) (hstage0_3 ((cfg0.slots t 3).cast nbuf0_3)) (win0_4.stage (cfg0.slots t 4)) (hstage0_4 ((cfg0.slots t 4).cast nbuf0_4))
      scM (Memref.isWhole_whole _) hc
      (win0_0.fill (grid0.coords t) d0 (iblk m c 0 t)) (iblk m c 1 t) (iblk m c 2 t) (iblk m c 3 t) Set.univ _)
    isplitl [H0]; · iexact H0
    isplitl [H1]; · iexact H1
    isplitl [H2]; · iexact H2
    isplitl [H3]; · iexact H3
    isplitl [H4]; · iexists _; iexact H4
    isplitl [HS]; · iexists _; iexact HS
    iintro ⟨H0, H1, H2, H3, H4, HS⟩
    isplitl [HS Hg]
    · isplitl [HS]; · iexact HS
      iexact Hg
    isplitl [Ho]; · iexact Ho
    isplitl [H0]; · iexists d0; iexact H0
    isplitl [H1]; · iexact H1
    isplitl [H2]; · iexact H2
    isplitl [H3]; · iexact H3
    iexists _
    rw [← hcut, win0_4.fill_cut]
    iexact H4
  · have hc : ¬condA (grid0.coords t) := fun h => hz ((condA_iff t).mp h)
    rw [PhiS_pos m c _ hz]
    iintro ⟨⟨HS, Hg⟩, Ho, ⟨%d0, H0⟩, ⟨%d1, H1⟩, ⟨%d2, H2⟩, ⟨%d3, H3⟩, ⟨%d4, H4⟩⟩
    have hcut := cut_pay2 m c t d0
    iapply (runB (F := Ideal) c (grid0.coords t) (win0_0.stage (cfg0.slots t 0)) (hstage0_0 ((cfg0.slots t 0).cast nbuf0_0))
      (win0_1.stage (cfg0.slots t 1)) (hstage0_1 ((cfg0.slots t 1).cast nbuf0_1)) (win0_2.stage (cfg0.slots t 2)) (hstage0_2 ((cfg0.slots t 2).cast nbuf0_2))
      (win0_3.stage (cfg0.slots t 3)) (hstage0_3 ((cfg0.slots t 3).cast nbuf0_3)) (win0_4.stage (cfg0.slots t 4)) (hstage0_4 ((cfg0.slots t 4).cast nbuf0_4))
      scM (Memref.isWhole_whole _) hc
      (win0_0.fill (grid0.coords t) d0 (iblk m c 0 t)) (iblk m c 1 t) (iblk m c 2 t) (iblk m c 3 t) (supp m c) Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, H4, HS⟩
    isplitl [HS Hg]
    · isplitl [HS]; · iexact HS
      iexact Hg
    isplitl [Ho]; · iexact Ho
    isplitl [H0]; · iexists d0; iexact H0
    isplitl [H1]; · iexact H1
    isplitl [H2]; · iexact H2
    isplitl [H3]; · iexact H3
    iexists _
    rw [← hcut, win0_4.fill_cut]
    iexact H4

/-- The library's body obligation in its loose form, at every point. -/
theorem body_obligation (c : Dev nD) : BodyObligationLoose (dats m 0 c) (defs₀ (F := Ideal)) Variants.none () Set.univ := fun t => by
  rw [bigSep_W0, bigSep_W0]
  exact sound_body m c t

end Cert.KernelIdeal.Hand

end
-- ==== Proof.Spec.lean ====
/-
  The mathematics both programs compute, stated once over plain index functions on the extended reals.

  A graph-convolution layer: with features x : [10000, 128], a dense adjacency matrix adj : [10000, 10000], weights
  w : [128, 32] and a bias row b : [32], the result at row r and column q is

      logistic ( Σ_k adj[r, k] · ( Σ_j x[k, j] · w[j, q] ) + b[q] ).

  The inner sum is the support matrix x·w; the outer sum multiplies the adjacency row into it. Both programs group
  the sums this way, so no law of the extended reals beyond reading each side at an index joins them.
-/
import Idealize.ShloMosaic.PureOps.Ideal
import Idealize.ShloMosaic.Lib.ValueIdx

noncomputable section

namespace Cert.Spec

open Idealize.ShloMosaic Idealize.ShloMosaic.ValueIdx

/-- The support matrix x·w at row `k`, column `q`. -/
def supportAt (x : (⟨2, ![10000, 128]⟩ : Shape).Idx → EReal) (w : (⟨2, ![128, 32]⟩ : Shape).Idx → EReal)
    (k : Fin 10000) (q : Fin 32) : EReal :=
  ∑ j : Fin 128, x (ix2 k j) * w (ix2 j q)

/-- The support matrix as an array. -/
def support (x : (⟨2, ![10000, 128]⟩ : Shape).Idx → EReal) (w : (⟨2, ![128, 32]⟩ : Shape).Idx → EReal) :
    (⟨2, ![10000, 32]⟩ : Shape).Idx → EReal :=
  fun i => supportAt x w (i 0) (i 1)

/-- One entry of the layer's result over a given support matrix `s`: the adjacency row times the support column,
    plus the bias entry, through the logistic function. -/
def layerAt (adj : (⟨2, ![10000, 10000]⟩ : Shape).Idx → EReal) (s : (⟨2, ![10000, 32]⟩ : Shape).Idx → EReal)
    (b : (⟨1, ![32]⟩ : Shape).Idx → EReal) (r : Fin 10000) (q : Fin 32) : EReal :=
  Ideal.logistic ((∑ k : Fin 10000, adj (ix2 r k) * s (ix2 k q)) + b (ix1 q))

/-- The layer's result as an array: what both programs end holding. -/
def layer (x : (⟨2, ![10000, 128]⟩ : Shape).Idx → EReal) (adj : (⟨2, ![10000, 10000]⟩ : Shape).Idx → EReal)
    (w : (⟨2, ![128, 32]⟩ : Shape).Idx → EReal) (b : (⟨1, ![32]⟩ : Shape).Idx → EReal) :
    (⟨2, ![10000, 32]⟩ : Shape).Idx → EReal :=
  fun i => layerAt adj (support x w) b (i 0) (i 1)

theorem support_ix2 (x : (⟨2, ![10000, 128]⟩ : Shape).Idx → EReal) (w : (⟨2, ![128, 32]⟩ : Shape).Idx → EReal)
    (k : Fin 10000) (q : Fin 32) : support x w (ix2 k q) = supportAt x w k q := rfl

theorem layer_ix2 (x : (⟨2, ![10000, 128]⟩ : Shape).Idx → EReal) (adj : (⟨2, ![10000, 10000]⟩ : Shape).Idx → EReal)
    (w : (⟨2, ![128, 32]⟩ : Shape).Idx → EReal) (b : (⟨1, ![32]⟩ : Shape).Idx → EReal) (r : Fin 10000) (q : Fin 32) :
    layer x adj w b (ix2 r q) = layerAt adj (support x w) b r q := rfl

end Cert.Spec

end
-- ==== Proof.IdealFinal.lean ====
/-
  The idealized kernel's run, and what the output array ends holding.

  The 25 output blocks, cut at the array's end, tile the 10000 rows (block b holds rows 416·b up to 416·b + 416, the
  last one up to 10000), every point writes its block back, and every block written is the layer's block; so the array
  ends holding the layer. Read over the launch arrays — the resident blocks are the whole feature and weight arrays, the
  bias row is the reshaped bias vector — that is the specification's layer.
-/
import proofs.«116405_g11184094839116_rerun558fix_278_30_alg».proof.Proof.IdealBody
import proofs.«116405_g11184094839116_rerun558fix_278_30_alg».proof.Proof.Spec
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## The run -/

theorem hin (c : Dev nD) : Pipeline.ΦA spec0 c ⊢ (dats m 0 c).Φ 0 := by
  rw [show (dats m 0 c).Φ 0 = Pipeline.ΦA spec0 c from rfl]

/-- After the last point the invariant gives the region's own back: the support matrix in the scratch is forgotten. -/
theorem hout (c : Dev nD) : (dats m 0 c).Φ (Fin.last cfg0.N) ⊢ Pipeline.ΦA spec0 c := by
  rw [show (dats m 0 c).Φ (Fin.last cfg0.N) = PhiS m c cfg0.N from rfl,
    PhiS_pos m c _ (by rw [show cfg0.N = 25 from N_0]; decide), PhiA_eq]
  iintro ⟨HS, Hg⟩
  isplitl [HS]
  · iexists _; iexact HS
  iexact Hg

-- the launch theorem's implicit arguments are found by unifying its conclusion with this one
set_option backward.isDefEq.respectTransparency.types false in
/-- Every weakly fair execution of the idealized program terminates, with every array of the pipeline at what the
    library computes from the proof data and every other unscoped buffer as the region found it. -/
theorem run_main : θ_run defs (onTc (τ := τ) (main (F := Ideal))) (s₀ m ρ) (Pipeline.FramePost cfgs (dats m) 0 (V m)) :=
  Pipeline.θ_run_frame_track cfgs (dats m) (0 : Fin 1) launch0 defs₀ Variants.none m ρ main
    (hbody := body_obligation m) (hshare := fun c => (dats m 0 c).share_full fun _ => rfl) (howed := fun _ _ => rfl)
    (V := V m) (hmain := hmain m Variants.none) (hA := A_eq m) (hin := hin m) (hout := hout m)

/-! ## The output array after the run -/

/-- An index of the output array is in point `t`'s cut block iff each coordinate is in the block's range on its axis. -/
theorem mem_blk4 (t : Fin cfg0.N) (i : S10000x32.Idx) :
    i ∈ ((cfg0.win 4).blk t).view.set ↔ ∀ a : Fin 2, win0_4.index t a * S416x32.size a ≤ (i a).val
      ∧ (i a).val < win0_4.index t a * S416x32.size a + win0_4.xsize (grid0.coords t) a := by
  show i ∈ ((View.whole main_v1).slice (win0_4.rect t)).set ↔ _
  rw [View.set_slice_whole, Rect.mem_set_unit]
  exact Iff.rfl

/-- Every block row is some point's, with the columns whole and the rows cut only at the array's end. -/
theorem idx_onto : ∀ b : Fin 25, ∃ t : Fin cfg0.N, win0_4.index t (0 : Fin 2) = b.val ∧ win0_4.index t (1 : Fin 2) = 0
    ∧ win0_4.xsize (grid0.coords t) (1 : Fin 2) = 32
    ∧ (win0_4.xsize (grid0.coords t) (0 : Fin 2) = 416 ∨ b.val * 416 + win0_4.xsize (grid0.coords t) (0 : Fin 2) = 10000) :=
  (by decide +kernel : ∀ b : Fin 25, ∃ t : Fin grid0.N, _)

/-- The cut blocks cover the array: row r is in block r / 416. -/
theorem cover4 (i : S10000x32.Idx) : ∃ t : Fin cfg0.N, (cfg0.win 4).flush t = true ∧ i ∈ ((cfg0.win 4).blk t).view.set := by
  have h0 : (i 0).val < 10000 := (i 0).isLt
  have h1 : (i 1).val < 32 := (i 1).isLt
  obtain ⟨t, e0, e1, e2, e3⟩ := idx_onto ⟨(i 0).val / 416, by omega⟩
  have e0' : win0_4.index t (0 : Fin 2) = (i 0).val / 416 := e0
  have e3' : win0_4.xsize (grid0.coords t) (0 : Fin 2) = 416 ∨ (i 0).val / 416 * 416 + win0_4.xsize (grid0.coords t) (0 : Fin 2) = 10000 := e3
  refine ⟨t, flush0_4 t, ?_⟩
  rw [mem_blk4]
  intro a
  match a with
  | ⟨0, _⟩ =>
    show win0_4.index t (0 : Fin 2) * 416 ≤ (i 0).val ∧ (i 0).val < win0_4.index t (0 : Fin 2) * 416 + win0_4.xsize (grid0.coords t) (0 : Fin 2)
    omega
  | ⟨1, _⟩ =>
    show win0_4.index t (1 : Fin 2) * 32 ≤ (i 1).val ∧ (i 1).val < win0_4.index t (1 : Fin 2) * 32 + win0_4.xsize (grid0.coords t) (1 : Fin 2)
    omega

/-- The output array after the run is the layer over the support matrix. -/
theorem final4 (c : Dev nD) : (dats m 0 c).arrAt 4 cfg0.N = layerOut m c :=
  (dats m 0 c).arrAt_eq_of_cover 4 (layerOut m c) (fun t _ => flushed4 m c t) (cover4)

/-! ## The layer over the launch arrays -/

/-- The resident windows sit at block zero: their blocks are their whole arrays. -/
theorem idx_resident : win0_1.index t0 (0 : Fin 2) = 0 ∧ win0_1.index t0 (1 : Fin 2) = 0
    ∧ win0_2.index t0 (0 : Fin 2) = 0 ∧ win0_2.index t0 (1 : Fin 2) = 0 := by decide +kernel

theorem x_blk (c : Dev nD) (k : Fin 10000) (j : Fin 128) :
    iblk m c 1 t0 (ix2 k j) = m ((c : Thread nD τ).loc main_arg0) (ix2 k j) := by
  obtain ⟨e0, e1, e2, e3⟩ := idx_resident
  unfold iblk; rw [View.read_apply]
  show V m c main_arg0 _ = _
  rw [V_main_arg0]
  refine congrArg (m ((c : Thread nD τ).loc main_arg0)) (funext fun a => Fin.ext ?_)
  match a with
  | ⟨0, _⟩ => show win0_1.index t0 (0 : Fin 2) * 10000 + 1 * k.val = k.val; omega
  | ⟨1, _⟩ => show win0_1.index t0 (1 : Fin 2) * 128 + 1 * j.val = j.val; omega

theorem w_blk (c : Dev nD) (j : Fin 128) (q : Fin 32) :
    iblk m c 2 t0 (ix2 j q) = m ((c : Thread nD τ).loc main_arg2) (ix2 j q) := by
  obtain ⟨e0, e1, e2, e3⟩ := idx_resident
  unfold iblk; rw [View.read_apply]
  show V m c main_arg2 _ = _
  rw [V_main_arg2]
  refine congrArg (m ((c : Thread nD τ).loc main_arg2)) (funext fun a => Fin.ext ?_)
  match a with
  | ⟨0, _⟩ => show win0_2.index t0 (0 : Fin 2) * 128 + 1 * j.val = j.val; omega
  | ⟨1, _⟩ => show win0_2.index t0 (1 : Fin 2) * 32 + 1 * q.val = q.val; omega

/-- The bias row the region finds is the bias vector reshaped to one row. -/
theorem bias_row (c : Dev nD) (q : Fin 32) : biasRow m c (ix2 0 q) = m ((c : Thread nD τ).loc main_arg3) (ix1 q) := by
  have e : (V m c main_v0 : S1x32.Idx → Elt Ideal .f32)
      = shapeCast S1x32 (m ((c : Thread nD τ).loc main_arg3)) shapeCasts_S32_S1x32 := by
    dsimp only [V, hostOps0]; after_results; rfl
  show (V m c main_v0 : S1x32.Idx → Elt Ideal .f32) (ix2 0 q) = _
  rw [e]
  exact shapeCast_apply _ shapeCasts_S32_S1x32 (ix2 0 q) (ix1 q)
    (by rw [Shape.rowMajor_val_one, Shape.rowMajor_val_two]; show q.val = 0 * 32 + q.val; omega)

/-- The support matrix over the launch arrays. -/
theorem supp_eq (c : Dev nD) :
    supp m c = Cert.Spec.support (m ((c : Thread nD τ).loc main_arg0)) (m ((c : Thread nD τ).loc main_arg2)) := by
  funext i
  obtain ⟨k, q, rfl⟩ : ∃ (k : Fin 10000) (q : Fin 32), i = ix2 k q := ⟨i 0, i 1, eq_ix2 i⟩
  unfold supp
  rw [pay1_apply, Cert.Spec.support_ix2]
  unfold Cert.Spec.supportAt
  exact Finset.sum_congr rfl fun j _ => by rw [x_blk, w_blk]

/-- THE RESULT: the output array after the run is the specification's layer of the four launch arrays. -/
theorem final_eq (c : Dev nD) :
    (dats m 0 c).arrAt 4 cfg0.N = Cert.Spec.layer (m ((c : Thread nD τ).loc main_arg0)) (m ((c : Thread nD τ).loc main_arg1))
      (m ((c : Thread nD τ).loc main_arg2)) (m ((c : Thread nD τ).loc main_arg3)) := by
  rw [final4]
  funext i
  obtain ⟨r, q, rfl⟩ : ∃ (r : Fin 10000) (q : Fin 32), i = ix2 r q := ⟨i 0, i 1, eq_ix2 i⟩
  rw [Cert.Spec.layer_ix2]
  unfold layerOut Cert.Spec.layerAt
  have ha : adjArr m c = (m ((c : Thread nD τ).loc main_arg1) : Vec Ideal S10000x10000 .f32) := V_main_arg1 m c
  rw [supp_eq, bias_row, ha]

/-- The idealized kernel's run with its result named: the output array at the specification's layer, the four
    argument arrays unchanged. -/
theorem run_value : θ_run defs (onTc (τ := τ) (main (F := Ideal))) ⟨m, fun _ => 0, ρ⟩ (fun r => ∀ c : Dev nD,
      r.2.mem ((c.tc : Thread nD τ).loc main_v1) = Cert.Spec.layer (m ((c : Thread nD τ).loc main_arg0)) (m ((c : Thread nD τ).loc main_arg1))
        (m ((c : Thread nD τ).loc main_arg2)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).1 4).trans (final_eq m c),
      ((h c).1 1).trans (((dats m 0 c).arrAt_in 1 rfl _).trans ((A_eq m c 1).trans (V_main_arg0 m c))),
      ((h c).1 0).trans (((dats m 0 c).arrAt_in 0 rfl _).trans ((A_eq m c 0).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c)⟩) (run_main m ρ)

end Cert.KernelIdeal.Hand

end
-- ==== Proof.RefValue.lean ====
/-
  The reference program's result is the layer of the specification.

  The reference computes  1 / (1 + exp(−(adj·(x·w) + b)))  with two matrix products on the host; read at an index
  (row r, column q) over the extended reals that is  logistic(Σ_k adj[r, k] · (Σ_j x[k, j] · w[j, q]) + b[q]),  the
  logistic function being by definition the quotient  1 / (1 + exp(−z)).  The literal 1.0 is the extended real one.
-/
import proofs.«116405_g11184094839116_rerun558fix_278_30_alg».proof.Proof.Gen.ReferenceIdeal.Read
import proofs.«116405_g11184094839116_rerun558fix_278_30_alg».proof.Proof.Spec
import Idealize.ShloMosaic.Lib.IdealHost

noncomputable section

namespace Cert.ReferenceIdeal.RefValue

open Cert.ReferenceIdeal Cert.ReferenceIdeal.Read Idealize.ShloMosaic Idealize.ShloMosaic.ValueIdx

/-- The operand indices of the two matrix products and of the two broadcasts, at output index (r, q). -/
theorem lidx0 (k : Fin 10000) (q : Fin 32) (j : Fin 128) : lidx_main_v0 (ix2 k q) j = ix2 k j :=
  funext fun a => Fin.ext (by match a with | ⟨0, _⟩ => rfl | ⟨1, _⟩ => rfl)
theorem ridx0 (k : Fin 10000) (q : Fin 32) (j : Fin 128) : ridx_main_v0 (ix2 k q) j = ix2 j q :=
  funext fun a => Fin.ext (by match a with | ⟨0, _⟩ => rfl | ⟨1, _⟩ => rfl)
theorem lidx1 (r : Fin 10000) (q : Fin 32) (k : Fin 10000) : lidx_main_v1 (ix2 r q) k = ix2 r k :=
  funext fun a => Fin.ext (by match a with | ⟨0, _⟩ => rfl | ⟨1, _⟩ => rfl)
theorem ridx1 (r : Fin 10000) (q : Fin 32) (k : Fin 10000) : ridx_main_v1 (ix2 r q) k = ix2 k q :=
  funext fun a => Fin.ext (by match a with | ⟨0, _⟩ => rfl | ⟨1, _⟩ => rfl)
theorem bidx (r : Fin 10000) (q : Fin 32) : idx_main_v2 (idx_main_v3 (ix2 r q)) = ix1 q :=
  funext fun a => Fin.ext (by match a with | ⟨0, _⟩ => rfl)

/-- The reference's last stage, as a function of the four arguments, is the specification's layer. -/
theorem result_eq (x0 : (⟨S10000x128, .f32⟩ : BufTy).Contents (Elt Ideal)) (x1 : (⟨S10000x10000, .f32⟩ : BufTy).Contents (Elt Ideal))
    (x2 : (⟨S128x32, .f32⟩ : BufTy).Contents (Elt Ideal)) (x3 : (⟨S32, .f32⟩ : BufTy).Contents (Elt Ideal)) :
    val_main_v10 (F := Ideal) x0 x1 x2 x3 = Cert.Spec.layer x0 x1 x2 x3 := by
  funext i
  obtain ⟨r, q, rfl⟩ : ∃ (r : Fin 10000) (q : Fin 32), i = ix2 r q := ⟨i 0, i 1, eq_ix2 i⟩
  rw [Cert.Spec.layer_ix2, val_main_v10_apply, val_main_v9_apply, val_main_cst_0_apply, val_main_v8_apply, val_main_v7_apply,
    val_main_cst_apply, val_main_v6_apply, val_main_v5_apply, val_main_v4_apply, val_main_v1_apply, val_main_v3_apply,
    val_main_v2_apply, bidx]
  simp only [val_main_v0_apply, lidx0, ridx0, lidx1, ridx1]
  unfold Cert.Spec.layerAt
  simp only [Cert.Spec.support_ix2]
  unfold Cert.Spec.supportAt Ideal.logistic
  simp only [Ideal.hostDivf_def, Ideal.addf_def, Ideal.hostUnary_exp_def, Ideal.hostNegf_def, Ideal.negf_def, Ideal.ofBits_def,
    Ideal.ofBits_one_f32]

end Cert.ReferenceIdeal.RefValue

end
-- ==== Proof.lean ====
/-
  The certificate of a graph-convolution layer kernel against its jnp reference:
      out = logistic(adj · (x · w) + b),   x : [10000, 128], adj : [10000, 10000], w : [128, 32], b : [32].

  The kernel walks the 10000 rows of adj in 25 blocks of 416 rows, last block first; the last block overhangs the array
  by 400 rows, so its fetch and its write-back are cut to 16 rows. At the first point it computes the support matrix
  x · w into a scratch buffer that it only reads afterwards; at every point it multiplies its adjacency block into the
  scratch, adds the bias row and applies the logistic function. The reference does the two products whole on the host
  and spells the logistic function as 1 / (1 + exp(−z)).

  Over the extended reals both are, at row r and column q,  logistic(Σ_k adj[r, k] · (Σ_j x[k, j] · w[j, q]) + b[q]):
  the sums are grouped the same way on both sides, a product into a zero accumulator is the plain sum, and the logistic
  function is that quotient by definition. The rows of the staging buffer past the array's end enter only the output rows
  that the cut write-back drops, because row p of a matrix product reads row p of its left operand only. So the value
  claim needs no precondition.

  The three frames: the word-level kernel's from relational proof data that say nothing of any buffer (at that
  instance a matrix product is opaque in its whole operand, so nothing could be named, and a frame needs nothing);
  the idealized kernel's from its value run; the reference's from its generated run.
-/
import proofs.«116405_g11184094839116_rerun558fix_278_30_alg».proof.Defs
import proofs.«116405_g11184094839116_rerun558fix_278_30_alg».proof.Proof.Gen.Kernel
import proofs.«116405_g11184094839116_rerun558fix_278_30_alg».proof.Proof.Gen.KernelIdeal
import proofs.«116405_g11184094839116_rerun558fix_278_30_alg».proof.Proof.Gen.ReferenceIdeal
import proofs.«116405_g11184094839116_rerun558fix_278_30_alg».proof.Proof.Gen.Pre_finite_inputs
import proofs.«116405_g11184094839116_rerun558fix_278_30_alg».proof.Proof.KernelFrame
import proofs.«116405_g11184094839116_rerun558fix_278_30_alg».proof.Proof.IdealFinal
import proofs.«116405_g11184094839116_rerun558fix_278_30_alg».proof.Proof.RefValue
import Idealize.ShloMosaic.Adequacy
import Idealize.ShloMosaic.Init

noncomputable section

namespace Cert.Proof

open Idealize.ShloMosaic Idealize.SL.Sem

/-- The word-level kernel runs and leaves its arguments unchanged. -/
theorem frame_k : Cert.frame_Kernel := fun m ρ _ => Cert.Kernel.Hand.frame (F := Bits) m ρ

/-- The idealized kernel runs and leaves its arguments unchanged: its value run, the result dropped. -/
theorem frame_ki : Cert.frame_KernelIdeal := fun m ρ _ =>
  (θ_run Cert.KernelIdeal.defs _ _).mono (fun _ h c => (h c).2) (Cert.KernelIdeal.Hand.run_value m ρ)

/-- The reference runs and leaves its arguments unchanged: its generated run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both idealized programs end holding the specification's layer of their (agreeing) arguments. -/
theorem algebraic : Cert.algebraic_KernelIdeal_ReferenceIdeal := by
  intro m ρ m' ρ' _ hagree
  refine ⟨fun c => Cert.Spec.layer (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq, Cert.ReferenceIdeal.RefValue.result_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
